-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S400x10000 : Shape := ⟨2, ![400, 10000]⟩
abbrev S400x128 : Shape := ⟨2, ![400, 128]⟩

abbrev nBuf : Space → Nat
  | .hbm => 37
  | .vmem => 27
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S10000x128, .bf16⟩
  | .hbm, ⟨34, _⟩ => ⟨S10000x128, .bf16⟩
  | .hbm, ⟨35, _⟩ => ⟨S10000x128, .bf16⟩
  | .hbm, ⟨36, _⟩ => ⟨S10000x128, .f32⟩
  | .local _ .vmem, ⟨0, _⟩ => ⟨S10000x128, .f32⟩
  | .local _ .vmem, ⟨1, _⟩ => ⟨S128x128, .bf16⟩
  | .local _ .vmem, ⟨2, _⟩ => ⟨S1x128, .f32⟩
  | .local _ .vmem, ⟨3, _⟩ => ⟨S10000x128, .bf16⟩
  | .local _ .vmem, ⟨4, _⟩ => ⟨S400x10000, .f32⟩
  | .local _ .vmem, ⟨5, _⟩ => ⟨S400x10000, .f32⟩
  | .local _ .vmem, ⟨6, _⟩ => ⟨S10000x128, .bf16⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S400x128, .bf16⟩
  | .local _ .vmem, ⟨12, _⟩ => ⟨S400x128, .bf16⟩
  | .local _ .vmem, ⟨13, _⟩ => ⟨S400x10000, .f32⟩
  | .local _ .vmem, ⟨14, _⟩ => ⟨S400x10000, .f32⟩
  | .local _ .vmem, ⟨15, _⟩ => ⟨S10000x128, .bf16⟩
  | .local _ .vmem, ⟨16, _⟩ => ⟨S1x128, .f32⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S400x128, .bf16⟩
  | .local _ .vmem, ⟨21, _⟩ => ⟨S400x128, .bf16⟩
  | .local _ .vmem, ⟨22, _⟩ => ⟨S400x10000, .f32⟩
  | .local _ .vmem, ⟨23, _⟩ => ⟨S400x10000, .f32⟩
  | .local _ .vmem, ⟨24, _⟩ => ⟨S10000x128, .bf16⟩
  | .local _ .vmem, ⟨25, _⟩ => ⟨S400x128, .f32⟩
  | .local _ .vmem, ⟨26, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S128 : S_.BroadcastsInDim S128 (![] : Fin 0 → Fin S128.rank)
  shapeCasts_S128_S1x128 : S128.ShapeCasts S1x128
  transposes_S128x128_S128x128_1_0 : S128x128.Transposes [1, 0] S128x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .bf16 = 32 ∨ (Rect.block (s := S10000x128) S400x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .bf16 = 32 ∨ (Rect.block (s := S10000x128) S400x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v11) false false (stage0_1 0) (sem0_1 0) (Memref.isWhole_whole _) (hstage0_1 0)

abbrev win0_2 : Pipeline.Window sig grid0 :=
  Pipeline.Window.whole (Memref.whole main_v16) false false (stage0_2 0) (sem0_2 0) (Memref.isWhole_whole _) (hstage0_2 0)

abbrev win0_3 : Pipeline.Window sig grid0 :=
  Pipeline.Window.whole (Memref.whole main_v19) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S128x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S128x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics both programs compute, as functions of arrays over the extended reals, index by index.

  A three-layer graph encoder: with `A` a 10000 × 10000 matrix, `H` a 10000 × 128 matrix of node features,
  each layer is `A · (H · Wᵀ + b)`; between layers the features are scaled and shifted column by column
  (an evaluation-mode batch normalisation with mean 0 and variance 1: division by `√(1 + ε)`, product with
  `γ`, sum with `β`) and clipped below at zero.

  `agg A B` is the matrix product `A · B`; `lin H Wt b` is `H · Wt` plus the row `b` on every row;
  `act H s t` is `max (H ⊙ s + t) 0` with `s` and `t` rows. One program forms the scale row `γ · (1 / √(1 + ε))`
  once and multiplies by it; the other divides every entry by `√(1 + ε)` and then multiplies by `γ`. On the
  extended reals division by a nonzero real is the product with its reciprocal at every argument, the infinities
  included, so the two agree by commutativity and associativity of the product alone: `act_scale`.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The shapes: the adjacency matrix, the feature matrix, a weight matrix, a row, a vector. -/
abbrev SNN : Shape := ⟨2, ![10000, 10000]⟩
abbrev SND : Shape := ⟨2, ![10000, 128]⟩
abbrev SDD : Shape := ⟨2, ![128, 128]⟩
abbrev S1D : Shape := ⟨2, ![1, 128]⟩
abbrev SD : Shape := ⟨1, ![128]⟩

/-- `(A · B)[r, c] = ∑ k, A[r, k] · B[k, c]`. -/
def agg (A : SNN.Idx → EReal) (B : SND.Idx → EReal) : SND.Idx → EReal :=
  fun i => ∑ k : Fin 10000, A (ix2 (i 0) k) * B (ix2 k (i 1))

/-- `(H · Wt)[r, c] + b[0, c]`: a linear layer with the weight already transposed and the bias a row. -/
def lin (H : SND.Idx → EReal) (Wt : SDD.Idx → EReal) (b : S1D.Idx → EReal) : SND.Idx → EReal :=
  fun i => (∑ j : Fin 128, H (ix2 (i 0) j) * Wt (ix2 j (i 1))) + b (ix2 0 (i 1))

/-- `max (H[r, c] · s[0, c] + t[0, c]) 0`: scale and shift column by column, then clip at zero. -/
def act (H : SND.Idx → EReal) (s t : S1D.Idx → EReal) : SND.Idx → EReal :=
  fun i => max (H i * s (ix2 0 (i 1)) + t (ix2 0 (i 1))) 0

/-- One inner layer: aggregate, scale-shift-clip, then the NEXT layer's linear map. -/
def layer (A : SNN.Idx → EReal) (B : SND.Idx → EReal) (s t : S1D.Idx → EReal) (Wt : SDD.Idx → EReal)
    (b : S1D.Idx → EReal) : SND.Idx → EReal :=
  lin (act (agg A B) s t) Wt b

/-- The transpose of a weight matrix. -/
def tr (W : SDD.Idx → EReal) : SDD.Idx → EReal := fun i => W (ix2 (i 1) (i 0))

/-- A vector laid out as a row. -/
def row (b : SD.Idx → EReal) : S1D.Idx → EReal := fun i => b (ix1 (i 1))

/-- `√(1 + ε)` as the programs spell it: the square root of the binary32 number nearest `1.00001`. -/
def rootVar : EReal := Ideal.sqrt (Ideal.ofBits .f32 0x3F800054#32)

/-- The scale row one program forms once: `γ[c] · (1 / √(1 + ε))`. -/
def scaleRow (g : SD.Idx → EReal) : S1D.Idx → EReal :=
  fun i => g (ix1 (i 1)) * Ideal.div (Ideal.ofBits .f32 0x3F800000#32) rootVar

/-- The other program's normalisation: `max (H[r, c] / √(1 + ε) · γ[c] + β[c]) 0`. -/
def actDiv (H : SND.Idx → EReal) (g be : SD.Idx → EReal) : SND.Idx → EReal :=
  fun i => max (Ideal.div (H i) rootVar * g (ix1 (i 1)) + be (ix1 (i 1))) 0

/-- The whole encoder, from the twelve argument arrays. -/
def encoder (A : SNN.Idx → EReal) (x : SND.Idx → EReal)
    (W1 : SDD.Idx → EReal) (b1 g1 be1 : SD.Idx → EReal)
    (W2 : SDD.Idx → EReal) (b2 g2 be2 : SD.Idx → EReal)
    (W3 : SDD.Idx → EReal) (b3 : SD.Idx → EReal) : SND.Idx → EReal :=
  agg A (layer A (layer A (lin x (tr W1) (row b1)) (scaleRow g1) (row be1) (tr W2) (row b2))
    (scaleRow g2) (row be2) (tr W3) (row b3))

/-! ## The constants -/

/-- The pattern `0x3F800054` denotes `(2²³ + 84) / 2²³`. -/
theorem ofBits_var : Ideal.ofBits .f32 0x3F800054#32 = ((8388692 / 8388608 : ℝ) : EReal) := by
  simp [Ideal.ofBits, Ideal.ieee, -EReal.coe_mul]; norm_num

/-- The pattern `0x3F800000` denotes `1`. -/
theorem ofBits_one : Ideal.ofBits .f32 0x3F800000#32 = 1 := by
  simp [Ideal.ofBits, Ideal.ieee, -EReal.coe_mul]; norm_num

/-- `√(1 + ε)` is a positive real. -/
theorem rootVar_eq : rootVar = ((Real.sqrt (8388692 / 8388608) : ℝ) : EReal) := by
  unfold rootVar; rw [ofBits_var]
  show (if (8388692 / 8388608 : ℝ) < 0 then (⊥ : EReal) else _) = _
  rw [if_neg (by norm_num)]

theorem sqrt_ne_zero : Real.sqrt (8388692 / 8388608) ≠ 0 :=
  (Real.sqrt_pos.mpr (by norm_num)).ne'

/-! ## The law that joins the two programs -/

/-- Multiplying by the row `γ · (1 / √(1 + ε))` is dividing by `√(1 + ε)` and then multiplying by `γ`, at every
    extended real: both are `h · (1 / √(1 + ε)) · γ` up to the order of the factors. -/
theorem act_scale (H : SND.Idx → EReal) (g be : SD.Idx → EReal) :
    act H (scaleRow g) (row be) = actDiv H g be := by
  funext i
  unfold act actDiv scaleRow row
  rw [rootVar_eq, ofBits_one, Ideal.div_coe sqrt_ne_zero, Ideal.div_coe sqrt_ne_zero, one_mul]
  show max (H i * (g (ix1 (i 1)) * _) + be (ix1 (i 1))) 0 = _
  rw [mul_comm (g (ix1 (i 1))), ← mul_assoc]

end Cert.Gcn

end
-- ==== Proof.Region0.lean ====
/-
  The first region: one grid point, the whole feature matrix times the transposed weight plus the bias row.
-/
import proofs.«178369_g11012296147170_week1_w3_712_3_alg».proof.Proof.Gen.KernelIdeal.Frame
import proofs.«178369_g11012296147170_week1_w3_712_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The product's operand indices

The product contracts the left operand's second axis with the right operand's first: at the output entry
`(r, c)` and the contraction position `k` the left operand is read at `(r, k)` and the right one at `(k, c)`. -/

/-- The left operand's row is the output's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- The left operand's column is the contraction position. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand's row is the contraction position. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- The right operand's column is the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at the entry `(p, q)`: `∑ k, a[p, k] · b[k, q]`. -/
theorem product_at (a : FVec Ideal S10000x128 .bf16) (b : FVec Ideal S128x128 .bf16) (p : Fin 10000) (q : Fin 128) :
    matmul dot_S10000x128_S128x128_S10000x128_1_0_0_1_n_n none a b (constant (F := Ideal) S10000x128 .f32 0x00000000#32) (ix2 p q)
      = ∑ k : Fin 128, a (ix2 p k) * b (ix2 k q) := by
  refine (Ideal.matmul_constant_zero_apply dot_S10000x128_S128x128_S10000x128_1_0_0_1_n_n none a b (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic, entry by entry -/

/-- The body's result at the entry `(p, q)`: the features' row `p` against the weight's column `q`, plus the bias
    row at `q`. The changes of float format are the identity on the extended reals, the two casts keep the shape,
    and the bias row is repeated on every row. -/
theorem body_at (x0 : Vec Ideal S10000x128 .f32) (x1 : Vec Ideal S128x128 .bf16) (x2 : Vec Ideal S1x128 .f32)
    (p : Fin 10000) (q : Fin 128) :
    k0_pay1 (F := Ideal) x0 x1 x2 (ix2 p q) = (∑ k : Fin 128, x0 (ix2 p k) * x1 (ix2 k q)) + x2 (ix2 (0 : Fin 1) q) := by
  unfold k0_pay1
  show matmul dot_S10000x128_S128x128_S10000x128_1_0_0_1_n_n none (truncf .bf16 x0 bitsLt_bf16_f32)
        (shapeCast S128x128 x1 shapeCasts_S128x128_S128x128) (constant (F := Ideal) S10000x128 .f32 0x00000000#32) (ix2 p q)
      + broadcastTo S10000x128 (shapeCast S1x128 x2 shapeCasts_S1x128_S1x128) broadcasts_S1x128_S10000x128 (ix2 p q) = _
  rw [shapeCast_self, shapeCast_self]
  refine congrArg₂ (· + ·) ((product_at _ _ p q).trans rfl) ?_
  exact broadcastTo_1b_ab_apply x2 broadcasts_S1x128_S10000x128 p q

/-- The body's result is the linear layer of its three operands. -/
theorem body_eq (x0 : Vec Ideal S10000x128 .f32) (x1 : Vec Ideal S128x128 .bf16) (x2 : Vec Ideal S1x128 .f32) :
    (k0_pay1 (F := Ideal) x0 x1 x2 : S10000x128.Idx → EReal) = Cert.Gcn.lin x0 x1 x2 := by
  funext i
  obtain ⟨p, q, rfl⟩ : ∃ (p : Fin 10000) (q : Fin 128), i = ix2 p q := ⟨i 0, i 1, eq_ix2 i⟩
  exact body_at x0 x1 x2 p q

/-! ## The blocks are the arrays

Every window of this region is its whole array at the block index `(0, 0)`: the entry `y` of a block sits in the
array at `0 · size + 1 · y` on each axis. -/

theorem off_zero : (![0, 0] : Fin 2 → Nat) = fun _ => 0 := funext fun a => by fin_cases a <;> rfl

/-- The feature window's block is the feature matrix. -/
theorem feat_block (c : Dev nD) (t : Fin cfg0.N) (y : S10000x128.Idx) :
    iblk0 (F := Ideal) V c 0 t y = V c main_arg1 y := by
  show V c main_arg1 (((cfg0.win 0).blk t).view.emb y) = V c main_arg1 y
  refine congrArg (V c main_arg1) (funext fun a => Fin.ext ?_)
  match a with
  | ⟨0, _⟩ => show 0 * 10000 + 1 * (y 0).val = (y 0).val; omega
  | ⟨1, _⟩ => show 0 * 128 + 1 * (y 1).val = (y 1).val; omega

/-- The weight window's block is the weight matrix. -/
theorem weight_block (c : Dev nD) (t : Fin cfg0.N) (y : S128x128.Idx) :
    iblk0 (F := Ideal) V c 1 t y = V c main_v11 y := by
  show V c main_v11 (((cfg0.win 1).blk t).view.emb y) = V c main_v11 y
  refine congrArg (V c main_v11) (funext fun a => Fin.ext ?_)
  match a with
  | ⟨0, _⟩ => show 0 * 128 + 1 * (y 0).val = (y 0).val; omega
  | ⟨1, _⟩ => show 0 * 128 + 1 * (y 1).val = (y 1).val; omega

/-- The bias window's block is the bias row. -/
theorem bias_block (c : Dev nD) (t : Fin cfg0.N) (y : S1x128.Idx) :
    iblk0 (F := Ideal) V c 2 t y = V c main_v16 y := by
  show V c main_v16 (((cfg0.win 2).blk t).view.emb y) = V c main_v16 y
  refine congrArg (V c main_v16) (funext fun a => Fin.ext ?_)
  match a with
  | ⟨0, _⟩ => show 0 * 1 + 1 * (y 0).val = (y 0).val; omega
  | ⟨1, _⟩ => show 0 * 128 + 1 * (y 1).val = (y 1).val; omega

/-! ## From the one block to the array -/

/-- What the one point writes back is the block of the linear layer of the three arrays. -/
theorem flushed_eq (c : Dev nD) (t : Fin cfg0.N) :
    (dat0 (F := Ideal) V c).flushed 3 t
      = ((cfg0.win 3).blk t).view.read (Elt Ideal) (Cert.Gcn.lin (V c main_arg1) (V c main_v11) (V c main_v16)) := by
  show (cfg0.win 3).cut (grid0.coords t) ((dat0 (F := Ideal) V c).after 3 t) = _
  rw [after0_3]
  unfold out0_3
  rw [View.canon_unit_zero off_zero]
  simp only [View.ld_unit_zero (S := S10000x128) off_zero, View.ld_unit_zero (S := S128x128) off_zero, View.ld_unit_zero (S := S1x128) off_zero]
  funext j
  show k0_pay1 (F := Ideal) (iblk0 V c 0 t) (iblk0 V c 1 t) (iblk0 V c 2 t) ((cfg0.win 3).xinj (grid0.coords t) j)
      = Cert.Gcn.lin (V c main_arg1) (V c main_v11) (V c main_v16) (((cfg0.win 3).blk t).view.emb j)
  have e0 : (iblk0 (F := Ideal) V c 0 t : S10000x128.Idx → EReal) = V c main_arg1 := funext (feat_block V c t)
  have e1 : (iblk0 (F := Ideal) V c 1 t : S128x128.Idx → EReal) = V c main_v11 := funext (weight_block V c t)
  have e2 : (iblk0 (F := Ideal) V c 2 t : S1x128.Idx → EReal) = V c main_v16 := funext (bias_block V c t)
  have ej : (cfg0.win 3).xinj (grid0.coords t) j = ((cfg0.win 3).blk t).view.emb j := by
    funext a; apply Fin.ext
    match a with
    | ⟨0, _⟩ => show (j 0).val = 0 * 10000 + 1 * (j 0).val; omega
    | ⟨1, _⟩ => show (j 1).val = 0 * 128 + 1 * (j 1).val; omega
  rw [body_eq (iblk0 V c 0 t) (iblk0 V c 1 t) (iblk0 V c 2 t), e0, e1, e2, ej]

/-- An index of the array is in the point's block iff each coordinate is in the block's range on its axis. -/
theorem mem_block (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v19).slice (win0_3.rect t)).set ↔ _
  rw [View.set_slice_whole, Rect.mem_set_unit]
  exact Iff.rfl

/-- The one point's block, the whole array, holds every index. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  refine ⟨t0_0, flush0_3 t0_0, ?_⟩
  rw [mem_block]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- The region's output array after its run, as one function of the arrays the region finds. -/
theorem arr (c : Dev nD) :
    (dat0 (F := Ideal) V c).arrAt 3 cfg0.N = Cert.Gcn.lin (V c main_arg1) (V c main_v11) (V c main_v16) :=
  (dat0 (F := Ideal) V c).arrAt_eq_of_cover 3 (Cert.Gcn.lin (V c main_arg1) (V c main_v11) (V c main_v16))
    (fun t _ => flushed_eq V c t) cover

end Cert.KernelIdeal.Region0

end
-- ==== Proof.Region1.lean ====
/-
  The second region: 25 grid points, point t computing rows 400 t … 400 t + 399 of one inner layer.
-/
import proofs.«178369_g11012296147170_week1_w3_712_3_alg».proof.Proof.Gen.KernelIdeal.Frame
import proofs.«178369_g11012296147170_week1_w3_712_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The two matrix products at an index

Each product contracts the left operand's columns with the right operand's rows: at output index (p, q) and
contraction coordinate k the left operand is read at (p, k) and the right at (k, q). -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_lin_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_lin_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_lin_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_lin_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The aggregation product into a zero accumulator, at (p, q): the sum over the 10000 columns of the left block. -/
theorem agg_apply (x : FVec Ideal S400x10000 .bf16) (y : FVec Ideal S10000x128 .bf16) (p : Fin 400) (q : Fin 128) :
    matmul dot_S400x10000_S10000x128_S400x128_1_0_0_1_n_n none x y (constant (F := Ideal) S400x128 .f32 0x00000000#32) (ix2 p q)
      = ∑ k : Fin 10000, x (ix2 p k) * y (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The linear map's product into a zero accumulator, at (p, q): the sum over the 128 features. -/
theorem lin_apply (x : FVec Ideal S400x128 .bf16) (y : FVec Ideal S128x128 .bf16) (p : Fin 400) (q : Fin 128) :
    matmul dot_S400x128_S128x128_S400x128_1_0_0_1_n_n none x y (constant (F := Ideal) S400x128 .f32 0x00000000#32) (ix2 p q)
      = ∑ k : Fin 128, x (ix2 p k) * y (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

/-! ## The body's arithmetic at an index -/

/-- The block the body stores, at (p, q): aggregate row p of the left block against the features, scale and shift
    column by column, clip at zero, apply the next linear map, add the bias row. The changes of float format are
    the identity on the extended reals, the shape casts are to the same shape, and the accumulators are zero. -/
theorem pay_apply (x0 : Vec Ideal S400x10000 .f32) (x1 : Vec Ideal S10000x128 .bf16) (x2 x3 : Vec Ideal S1x128 .f32)
    (x4 : Vec Ideal S128x128 .bf16) (x5 : Vec Ideal S1x128 .f32) (p : Fin 400) (q : Fin 128) :
    k1_pay1 (F := Ideal) x0 x1 x2 x3 x4 x5 (ix2 p q)
      = (∑ j : Fin 128, max ((∑ k : Fin 10000, x0 (ix2 p k) * x1 (ix2 k j)) * x2 (ix2 (0 : Fin 1) j) + x3 (ix2 (0 : Fin 1) j)) 0
            * x4 (ix2 j q)) + x5 (ix2 (0 : Fin 1) q) := by
  unfold k1_pay1
  simp only [shapeCast_self]
  rw [truncf_apply, addf_apply, lin_apply, broadcastTo_1b_ab_apply]
  refine congrArg (· + x5 (ix2 (0 : Fin 1) q)) (Finset.sum_congr rfl fun j _ => ?_)
  rw [truncf_apply, maximumf_apply, addf_apply, mulf_apply, agg_apply, broadcastTo_1b_ab_apply, broadcastTo_1b_ab_apply,
    broadcast_apply]
  simp only [truncf_apply, Ideal.ofBits_def, Ideal.ofBits_zero_f32]

/-- One inner layer at (r, q), written out. -/
theorem layer_apply (A : Cert.Gcn.SNN.Idx → EReal) (B : Cert.Gcn.SND.Idx → EReal) (s t : Cert.Gcn.S1D.Idx → EReal)
    (Wt : Cert.Gcn.SDD.Idx → EReal) (b : Cert.Gcn.S1D.Idx → EReal) (r : Fin 10000) (q : Fin 128) :
    Cert.Gcn.layer A B s t Wt b (ix2 r q)
      = (∑ j : Fin 128, max ((∑ k : Fin 10000, A (ix2 r k) * B (ix2 k j)) * s (ix2 (0 : Fin 1) j) + t (ix2 (0 : Fin 1) j)) 0
            * Wt (ix2 j q)) + b (ix2 (0 : Fin 1) q) := rfl

/-! ## The blocks the body reads, as entries of the arrays -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The printed index maps, decided once over the 25 points: the output's row block is at most 24 and its column
    block 0; the left matrix moves with the output's row block, whole rows; the five other operands are whole. -/
theorem block_indices : ∀ t : Fin cfg1.N,
    win1_6.index t (0 : Fin 2) ≤ 24 ∧ win1_6.index t (1 : Fin 2) = 0
    ∧ win1_0.index t (0 : Fin 2) = win1_6.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every one of the 25 row blocks of the output is some point's. -/
theorem row_block_onto : ∀ b : Fin 25, ∃ t : Fin cfg1.N, win1_6.index t (0 : Fin 2) = b.val :=
  (by decide +kernel : ∀ b : Fin 25, ∃ t : Fin grid1.N, win1_6.index t (0 : Fin 2) = b.val)

/-- The left matrix's block at a point, at (p, k): row r = 400 · (the output's row block) + p of the matrix, column k. -/
theorem read_adj (c : Dev nD) (t : Fin cfg1.N) (p : Fin 400) (k : Fin 10000) (r : Fin 10000)
    (hr : r.val = win1_6.index t (0 : Fin 2) * 400 + p.val) :
    (iblk1 V c 0 t : S400x10000.Idx → EReal) (ix2 p k) = (V c main_arg0 : S10000x10000.Idx → EReal) (ix2 r k) := by
  obtain ⟨-, -, e0, e1, -⟩ := block_indices t
  unfold iblk1
  rw [View.read_apply]
  show (V c main_arg0 : S10000x10000.Idx → EReal) _ = _
  refine congrArg (V c main_arg0 : S10000x10000.Idx → EReal) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- The feature matrix is one whole block at every point. -/
theorem read_feat (c : Dev nD) (t : Fin cfg1.N) (k : Fin 10000) (j : Fin 128) :
    (iblk1 V c 1 t : S10000x128.Idx → EReal) (ix2 k j) = (V c main_v19 : S10000x128.Idx → EReal) (ix2 k j) := by
  obtain ⟨-, -, -, -, h0, h1, -⟩ := block_indices t
  unfold iblk1
  rw [View.read_apply]
  show (V c main_v19 : S10000x128.Idx → EReal) _ = _
  refine congrArg (V c main_v19 : S10000x128.Idx → EReal) (funext fun i => Fin.ext ?_)
  match i with
  | ⟨0, _⟩ => show win1_1.index t (0 : Fin 2) * 10000 + 1 * k.val = k.val; omega
  | ⟨1, _⟩ => show win1_1.index t (1 : Fin 2) * 128 + 1 * j.val = j.val; omega

/-- The scale row is one whole block at every point. -/
theorem read_scale (c : Dev nD) (t : Fin cfg1.N) (z : Fin 1) (j : Fin 128) :
    (iblk1 V c 2 t : S1x128.Idx → EReal) (ix2 z j) = (V c main_v4 : S1x128.Idx → EReal) (ix2 z j) := by
  obtain ⟨-, -, -, -, -, -, h0, h1, -⟩ := block_indices t
  unfold iblk1
  rw [View.read_apply]
  show (V c main_v4 : S1x128.Idx → EReal) _ = _
  refine congrArg (V c main_v4 : S1x128.Idx → EReal) (funext fun i => Fin.ext ?_)
  match i with
  | ⟨0, _⟩ => show win1_2.index t (0 : Fin 2) * 1 + 1 * z.val = z.val; omega
  | ⟨1, _⟩ => show win1_2.index t (1 : Fin 2) * 128 + 1 * j.val = j.val; omega

/-- The shift row is one whole block at every point. -/
theorem read_shift (c : Dev nD) (t : Fin cfg1.N) (z : Fin 1) (j : Fin 128) :
    (iblk1 V c 3 t : S1x128.Idx → EReal) (ix2 z j) = (V c main_v5 : S1x128.Idx → EReal) (ix2 z j) := by
  obtain ⟨-, -, -, -, -, -, -, -, h0, h1, -⟩ := block_indices t
  unfold iblk1
  rw [View.read_apply]
  show (V c main_v5 : S1x128.Idx → EReal) _ = _
  refine congrArg (V c main_v5 : S1x128.Idx → EReal) (funext fun i => Fin.ext ?_)
  match i with
  | ⟨0, _⟩ => show win1_3.index t (0 : Fin 2) * 1 + 1 * z.val = z.val; omega
  | ⟨1, _⟩ => show win1_3.index t (1 : Fin 2) * 128 + 1 * j.val = j.val; omega

/-- The transposed weight matrix is one whole block at every point. -/
theorem read_weight (c : Dev nD) (t : Fin cfg1.N) (j : Fin 128) (q : Fin 128) :
    (iblk1 V c 4 t : S128x128.Idx → EReal) (ix2 j q) = (V c main_v13 : S128x128.Idx → EReal) (ix2 j q) := by
  obtain ⟨-, -, -, -, -, -, -, -, -, -, h0, h1, -⟩ := block_indices t
  unfold iblk1
  rw [View.read_apply]
  show (V c main_v13 : S128x128.Idx → EReal) _ = _
  refine congrArg (V c main_v13 : S128x128.Idx → EReal) (funext fun i => Fin.ext ?_)
  match i with
  | ⟨0, _⟩ => show win1_4.index t (0 : Fin 2) * 128 + 1 * j.val = j.val; omega
  | ⟨1, _⟩ => show win1_4.index t (1 : Fin 2) * 128 + 1 * q.val = q.val; omega

/-- The bias row is one whole block at every point. -/
theorem read_bias (c : Dev nD) (t : Fin cfg1.N) (z : Fin 1) (q : Fin 128) :
    (iblk1 V c 5 t : S1x128.Idx → EReal) (ix2 z q) = (V c main_v17 : S1x128.Idx → EReal) (ix2 z q) := by
  obtain ⟨-, -, -, -, -, -, -, -, -, -, -, -, h0, h1⟩ := block_indices t
  unfold iblk1
  rw [View.read_apply]
  show (V c main_v17 : S1x128.Idx → EReal) _ = _
  refine congrArg (V c main_v17 : S1x128.Idx → EReal) (funext fun i => Fin.ext ?_)
  match i with
  | ⟨0, _⟩ => show win1_5.index t (0 : Fin 2) * 1 + 1 * z.val = z.val; omega
  | ⟨1, _⟩ => show win1_5.index t (1 : Fin 2) * 128 + 1 * q.val = q.val; omega

/-! ## What a point writes back, and the array -/

/-- Where the output's block at a point sits in the array: its entry (p, q) is the array's (r, q), r = 400 · (row block) + p. -/
theorem out_emb (t : Fin cfg1.N) (p : Fin 400) (q : Fin 128) (r : Fin 10000)
    (hr : r.val = win1_6.index t (0 : Fin 2) * 400 + p.val) :
    ((cfg1.win 6).blk t).view.emb (ix2 p q) = (ix2 r q : S10000x128.Idx) := by
  obtain ⟨-, b1, -⟩ := block_indices t
  refine funext fun a => Fin.ext ?_
  match a with
  | ⟨0, _⟩ => show win1_6.index t (0 : Fin 2) * 400 + 1 * p.val = r.val; omega
  | ⟨1, _⟩ => show win1_6.index t (1 : Fin 2) * 128 + 1 * q.val = q.val; omega

/-- What a point writes back is its 400 rows of the layer of the arrays the region finds. -/
theorem flushed_eq (c : Dev nD) (t : Fin cfg1.N) :
    (dat1 (F := Ideal) V c).flushed 6 t = ((cfg1.win 6).blk t).view.read (Elt Ideal)
      (Cert.Gcn.layer (V c main_arg0) (V c main_v19) (V c main_v4) (V c main_v5) (V c main_v13) (V c main_v17)) := by
  show (cfg1.win 6).cut (grid1.coords t) ((dat1 (F := Ideal) V c).after 6 t) = _
  rw [after1_6]
  unfold out1_6
  rw [View.canon_unit_zero zero_offsets]
  simp only [View.ld_unit_zero (S := S400x10000) zero_offsets, View.ld_unit_zero (S := S10000x128) zero_offsets,
    View.ld_unit_zero (S := S1x128) zero_offsets, View.ld_unit_zero (S := S128x128) zero_offsets]
  refine funext fun (j : S400x128.Idx) => ?_
  obtain ⟨p, q, rfl⟩ : ∃ (p : Fin 400) (q : Fin 128), j = ix2 p q := ⟨j 0, j 1, eq_ix2 j⟩
  obtain ⟨b0, -⟩ := block_indices t
  have hr : win1_6.index t (0 : Fin 2) * 400 + p.val < 10000 := by have := p.isLt; omega
  show k1_pay1 (F := Ideal) (iblk1 V c 0 t) (iblk1 V c 1 t) (iblk1 V c 2 t) (iblk1 V c 3 t) (iblk1 V c 4 t) (iblk1 V c 5 t) (ix2 p q)
      = Cert.Gcn.layer (V c main_arg0) (V c main_v19) (V c main_v4) (V c main_v5) (V c main_v13) (V c main_v17)
          (((cfg1.win 6).blk t).view.emb (ix2 p q))
  rw [out_emb t p q ⟨_, hr⟩ rfl, layer_apply]
  refine (pay_apply (iblk1 V c 0 t) (iblk1 V c 1 t) (iblk1 V c 2 t) (iblk1 V c 3 t) (iblk1 V c 4 t) (iblk1 V c 5 t) p q).trans ?_
  simp only [read_adj V c t p _ ⟨_, hr⟩ rfl, read_feat V c t, read_scale V c t, read_shift V c t, read_weight V c t,
    read_bias V c t]

/-- An index of the array is in a point's block iff each coordinate is in the block's range on its axis. -/
theorem mem_blk (t : Fin cfg1.N) (i : S10000x128.Idx) :
    i ∈ ((cfg1.win 6).blk t).view.set ↔ ∀ a : Fin 2, win1_6.index t a * S400x128.size a ≤ (i a).val
      ∧ (i a).val < win1_6.index t a * S400x128.size a + S400x128.size a := by
  show i ∈ ((View.whole main_v20).slice (win1_6.rect t)).set ↔ _
  rw [View.set_slice_whole, Rect.mem_set_unit]
  exact Iff.rfl

/-- Every row of the array is in the block of the point whose row block is the row divided by 400. -/
theorem cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ := row_block_onto ⟨(i 0).val / 400, by omega⟩
  have q0 : win1_6.index t (0 : Fin 2) = (i 0).val / 400 := ht
  obtain ⟨-, b1, -⟩ := block_indices t
  refine ⟨t, flush1_6 t, ?_⟩
  rw [mem_blk]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 128 ≤ (i 1).val ∧ (i 1).val < win1_6.index t (1 : Fin 2) * 128 + 128; omega

/-- The region's output array after its run, as one function of the arrays the region finds. -/
theorem arr (c : Dev nD) :
    (dat1 (F := Ideal) V c).arrAt 6 cfg1.N = Cert.Gcn.layer (V c main_arg0) (V c main_v19) (V c main_v4) (V c main_v5) (V c main_v13) (V c main_v17) :=
  (dat1 (F := Ideal) V c).arrAt_eq_of_cover 6 _ (fun t _ => flushed_eq V c t) cover

end Cert.KernelIdeal.Region1

end
-- ==== Proof.Region2.lean ====
/-
  The third region: 25 grid points, point t computing rows 400 t … 400 t + 399 of one inner layer.
-/
import proofs.«178369_g11012296147170_week1_w3_712_3_alg».proof.Proof.Gen.KernelIdeal.Frame
import proofs.«178369_g11012296147170_week1_w3_712_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## The two matrix products at an index

Each product contracts the left operand's columns with the right operand's rows: at output index (p, q) and
contraction coordinate k the left operand is read at (p, k) and the right at (k, q). -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_lin_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_lin_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_lin_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_lin_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The aggregation product into a zero accumulator, at (p, q): the sum over the 10000 columns of the left block. -/
theorem agg_apply (x : FVec Ideal S400x10000 .bf16) (y : FVec Ideal S10000x128 .bf16) (p : Fin 400) (q : Fin 128) :
    matmul dot_S400x10000_S10000x128_S400x128_1_0_0_1_n_n none x y (constant (F := Ideal) S400x128 .f32 0x00000000#32) (ix2 p q)
      = ∑ k : Fin 10000, x (ix2 p k) * y (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The linear map's product into a zero accumulator, at (p, q): the sum over the 128 features. -/
theorem lin_apply (x : FVec Ideal S400x128 .bf16) (y : FVec Ideal S128x128 .bf16) (p : Fin 400) (q : Fin 128) :
    matmul dot_S400x128_S128x128_S400x128_1_0_0_1_n_n none x y (constant (F := Ideal) S400x128 .f32 0x00000000#32) (ix2 p q)
      = ∑ k : Fin 128, x (ix2 p k) * y (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

/-! ## The body's arithmetic at an index -/

/-- The block the body stores, at (p, q): aggregate row p of the left block against the features, scale and shift
    column by column, clip at zero, apply the next linear map, add the bias row. The changes of float format are
    the identity on the extended reals, the shape casts are to the same shape, and the accumulators are zero. -/
theorem pay_apply (x0 : Vec Ideal S400x10000 .f32) (x1 : Vec Ideal S10000x128 .bf16) (x2 x3 : Vec Ideal S1x128 .f32)
    (x4 : Vec Ideal S128x128 .bf16) (x5 : Vec Ideal S1x128 .f32) (p : Fin 400) (q : Fin 128) :
    k2_pay1 (F := Ideal) x0 x1 x2 x3 x4 x5 (ix2 p q)
      = (∑ j : Fin 128, max ((∑ k : Fin 10000, x0 (ix2 p k) * x1 (ix2 k j)) * x2 (ix2 (0 : Fin 1) j) + x3 (ix2 (0 : Fin 1) j)) 0
            * x4 (ix2 j q)) + x5 (ix2 (0 : Fin 1) q) := by
  unfold k2_pay1
  simp only [shapeCast_self]
  rw [truncf_apply, addf_apply, lin_apply, broadcastTo_1b_ab_apply]
  refine congrArg (· + x5 (ix2 (0 : Fin 1) q)) (Finset.sum_congr rfl fun j _ => ?_)
  rw [truncf_apply, maximumf_apply, addf_apply, mulf_apply, agg_apply, broadcastTo_1b_ab_apply, broadcastTo_1b_ab_apply,
    broadcast_apply]
  simp only [truncf_apply, Ideal.ofBits_def, Ideal.ofBits_zero_f32]

/-- One inner layer at (r, q), written out. -/
theorem layer_apply (A : Cert.Gcn.SNN.Idx → EReal) (B : Cert.Gcn.SND.Idx → EReal) (s t : Cert.Gcn.S1D.Idx → EReal)
    (Wt : Cert.Gcn.SDD.Idx → EReal) (b : Cert.Gcn.S1D.Idx → EReal) (r : Fin 10000) (q : Fin 128) :
    Cert.Gcn.layer A B s t Wt b (ix2 r q)
      = (∑ j : Fin 128, max ((∑ k : Fin 10000, A (ix2 r k) * B (ix2 k j)) * s (ix2 (0 : Fin 1) j) + t (ix2 (0 : Fin 1) j)) 0
            * Wt (ix2 j q)) + b (ix2 (0 : Fin 1) q) := rfl

/-! ## The blocks the body reads, as entries of the arrays -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The printed index maps, decided once over the 25 points: the output's row block is at most 24 and its column
    block 0; the left matrix moves with the output's row block, whole rows; the five other operands are whole. -/
theorem block_indices : ∀ t : Fin cfg2.N,
    win2_6.index t (0 : Fin 2) ≤ 24 ∧ win2_6.index t (1 : Fin 2) = 0
    ∧ win2_0.index t (0 : Fin 2) = win2_6.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Every one of the 25 row blocks of the output is some point's. -/
theorem row_block_onto : ∀ b : Fin 25, ∃ t : Fin cfg2.N, win2_6.index t (0 : Fin 2) = b.val :=
  (by decide +kernel : ∀ b : Fin 25, ∃ t : Fin grid2.N, win2_6.index t (0 : Fin 2) = b.val)

/-- The left matrix's block at a point, at (p, k): row r = 400 · (the output's row block) + p of the matrix, column k. -/
theorem read_adj (c : Dev nD) (t : Fin cfg2.N) (p : Fin 400) (k : Fin 10000) (r : Fin 10000)
    (hr : r.val = win2_6.index t (0 : Fin 2) * 400 + p.val) :
    (iblk2 V c 0 t : S400x10000.Idx → EReal) (ix2 p k) = (V c main_arg0 : S10000x10000.Idx → EReal) (ix2 r k) := by
  obtain ⟨-, -, e0, e1, -⟩ := block_indices t
  unfold iblk2
  rw [View.read_apply]
  show (V c main_arg0 : S10000x10000.Idx → EReal) _ = _
  refine congrArg (V c main_arg0 : S10000x10000.Idx → EReal) (funext fun a => Fin.ext ?_)
  match a with
  | ⟨0, _⟩ => show win2_0.index t (0 : Fin 2) * 400 + 1 * p.val = r.val; omega
  | ⟨1, _⟩ => show win2_0.index t (1 : Fin 2) * 10000 + 1 * k.val = k.val; omega

/-- The feature matrix is one whole block at every point. -/
theorem read_feat (c : Dev nD) (t : Fin cfg2.N) (k : Fin 10000) (j : Fin 128) :
    (iblk2 V c 1 t : S10000x128.Idx → EReal) (ix2 k j) = (V c main_v20 : S10000x128.Idx → EReal) (ix2 k j) := by
  obtain ⟨-, -, -, -, h0, h1, -⟩ := block_indices t
  unfold iblk2
  rw [View.read_apply]
  show (V c main_v20 : S10000x128.Idx → EReal) _ = _
  refine congrArg (V c main_v20 : S10000x128.Idx → EReal) (funext fun i => Fin.ext ?_)
  match i with
  | ⟨0, _⟩ => show win2_1.index t (0 : Fin 2) * 10000 + 1 * k.val = k.val; omega
  | ⟨1, _⟩ => show win2_1.index t (1 : Fin 2) * 128 + 1 * j.val = j.val; omega

/-- The scale row is one whole block at every point. -/
theorem read_scale (c : Dev nD) (t : Fin cfg2.N) (z : Fin 1) (j : Fin 128) :
    (iblk2 V c 2 t : S1x128.Idx → EReal) (ix2 z j) = (V c main_v8 : S1x128.Idx → EReal) (ix2 z j) := by
  obtain ⟨-, -, -, -, -, -, h0, h1, -⟩ := block_indices t
  unfold iblk2
  rw [View.read_apply]
  show (V c main_v8 : S1x128.Idx → EReal) _ = _
  refine congrArg (V c main_v8 : S1x128.Idx → EReal) (funext fun i => Fin.ext ?_)
  match i with
  | ⟨0, _⟩ => show win2_2.index t (0 : Fin 2) * 1 + 1 * z.val = z.val; omega
  | ⟨1, _⟩ => show win2_2.index t (1 : Fin 2) * 128 + 1 * j.val = j.val; omega

/-- The shift row is one whole block at every point. -/
theorem read_shift (c : Dev nD) (t : Fin cfg2.N) (z : Fin 1) (j : Fin 128) :
    (iblk2 V c 3 t : S1x128.Idx → EReal) (ix2 z j) = (V c main_v9 : S1x128.Idx → EReal) (ix2 z j) := by
  obtain ⟨-, -, -, -, -, -, -, -, h0, h1, -⟩ := block_indices t
  unfold iblk2
  rw [View.read_apply]
  show (V c main_v9 : S1x128.Idx → EReal) _ = _
  refine congrArg (V c main_v9 : S1x128.Idx → EReal) (funext fun i => Fin.ext ?_)
  match i with
  | ⟨0, _⟩ => show win2_3.index t (0 : Fin 2) * 1 + 1 * z.val = z.val; omega
  | ⟨1, _⟩ => show win2_3.index t (1 : Fin 2) * 128 + 1 * j.val = j.val; omega

/-- The transposed weight matrix is one whole block at every point. -/
theorem read_weight (c : Dev nD) (t : Fin cfg2.N) (j : Fin 128) (q : Fin 128) :
    (iblk2 V c 4 t : S128x128.Idx → EReal) (ix2 j q) = (V c main_v15 : S128x128.Idx → EReal) (ix2 j q) := by
  obtain ⟨-, -, -, -, -, -, -, -, -, -, h0, h1, -⟩ := block_indices t
  unfold iblk2
  rw [View.read_apply]
  show (V c main_v15 : S128x128.Idx → EReal) _ = _
  refine congrArg (V c main_v15 : S128x128.Idx → EReal) (funext fun i => Fin.ext ?_)
  match i with
  | ⟨0, _⟩ => show win2_4.index t (0 : Fin 2) * 128 + 1 * j.val = j.val; omega
  | ⟨1, _⟩ => show win2_4.index t (1 : Fin 2) * 128 + 1 * q.val = q.val; omega

/-- The bias row is one whole block at every point. -/
theorem read_bias (c : Dev nD) (t : Fin cfg2.N) (z : Fin 1) (q : Fin 128) :
    (iblk2 V c 5 t : S1x128.Idx → EReal) (ix2 z q) = (V c main_v18 : S1x128.Idx → EReal) (ix2 z q) := by
  obtain ⟨-, -, -, -, -, -, -, -, -, -, -, -, h0, h1⟩ := block_indices t
  unfold iblk2
  rw [View.read_apply]
  show (V c main_v18 : S1x128.Idx → EReal) _ = _
  refine congrArg (V c main_v18 : S1x128.Idx → EReal) (funext fun i => Fin.ext ?_)
  match i with
  | ⟨0, _⟩ => show win2_5.index t (0 : Fin 2) * 1 + 1 * z.val = z.val; omega
  | ⟨1, _⟩ => show win2_5.index t (1 : Fin 2) * 128 + 1 * q.val = q.val; omega

/-! ## What a point writes back, and the array -/

/-- Where the output's block at a point sits in the array: its entry (p, q) is the array's (r, q), r = 400 · (row block) + p. -/
theorem out_emb (t : Fin cfg2.N) (p : Fin 400) (q : Fin 128) (r : Fin 10000)
    (hr : r.val = win2_6.index t (0 : Fin 2) * 400 + p.val) :
    ((cfg2.win 6).blk t).view.emb (ix2 p q) = (ix2 r q : S10000x128.Idx) := by
  obtain ⟨-, b1, -⟩ := block_indices t
  refine funext fun a => Fin.ext ?_
  match a with
  | ⟨0, _⟩ => show win2_6.index t (0 : Fin 2) * 400 + 1 * p.val = r.val; omega
  | ⟨1, _⟩ => show win2_6.index t (1 : Fin 2) * 128 + 1 * q.val = q.val; omega

/-- What a point writes back is its 400 rows of the layer of the arrays the region finds. -/
theorem flushed_eq (c : Dev nD) (t : Fin cfg2.N) :
    (dat2 (F := Ideal) V c).flushed 6 t = ((cfg2.win 6).blk t).view.read (Elt Ideal)
      (Cert.Gcn.layer (V c main_arg0) (V c main_v20) (V c main_v8) (V c main_v9) (V c main_v15) (V c main_v18)) := by
  show (cfg2.win 6).cut (grid2.coords t) ((dat2 (F := Ideal) V c).after 6 t) = _
  rw [after2_6]
  unfold out2_6
  rw [View.canon_unit_zero zero_offsets]
  simp only [View.ld_unit_zero (S := S400x10000) zero_offsets, View.ld_unit_zero (S := S10000x128) zero_offsets,
    View.ld_unit_zero (S := S1x128) zero_offsets, View.ld_unit_zero (S := S128x128) zero_offsets]
  refine funext fun (j : S400x128.Idx) => ?_
  obtain ⟨p, q, rfl⟩ : ∃ (p : Fin 400) (q : Fin 128), j = ix2 p q := ⟨j 0, j 1, eq_ix2 j⟩
  obtain ⟨b0, -⟩ := block_indices t
  have hr : win2_6.index t (0 : Fin 2) * 400 + p.val < 10000 := by have := p.isLt; omega
  show k2_pay1 (F := Ideal) (iblk2 V c 0 t) (iblk2 V c 1 t) (iblk2 V c 2 t) (iblk2 V c 3 t) (iblk2 V c 4 t) (iblk2 V c 5 t) (ix2 p q)
      = Cert.Gcn.layer (V c main_arg0) (V c main_v20) (V c main_v8) (V c main_v9) (V c main_v15) (V c main_v18)
          (((cfg2.win 6).blk t).view.emb (ix2 p q))
  rw [out_emb t p q ⟨_, hr⟩ rfl, layer_apply]
  refine (pay_apply (iblk2 V c 0 t) (iblk2 V c 1 t) (iblk2 V c 2 t) (iblk2 V c 3 t) (iblk2 V c 4 t) (iblk2 V c 5 t) p q).trans ?_
  simp only [read_adj V c t p _ ⟨_, hr⟩ rfl, read_feat V c t, read_scale V c t, read_shift V c t, read_weight V c t,
    read_bias V c t]

/-- An index of the array is in a point's block iff each coordinate is in the block's range on its axis. -/
theorem mem_blk (t : Fin cfg2.N) (i : S10000x128.Idx) :
    i ∈ ((cfg2.win 6).blk t).view.set ↔ ∀ a : Fin 2, win2_6.index t a * S400x128.size a ≤ (i a).val
      ∧ (i a).val < win2_6.index t a * S400x128.size a + S400x128.size a := by
  show i ∈ ((View.whole main_v21).slice (win2_6.rect t)).set ↔ _
  rw [View.set_slice_whole, Rect.mem_set_unit]
  exact Iff.rfl

/-- Every row of the array is in the block of the point whose row block is the row divided by 400. -/
theorem cover (i : S10000x128.Idx) :
    ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := row_block_onto ⟨(i 0).val / 400, by omega⟩
  have q0 : win2_6.index t (0 : Fin 2) = (i 0).val / 400 := ht
  obtain ⟨-, b1, -⟩ := block_indices t
  refine ⟨t, flush2_6 t, ?_⟩
  rw [mem_blk]
  intro a
  match a with
  | ⟨0, _⟩ => show win2_6.index t (0 : Fin 2) * 400 ≤ (i 0).val ∧ (i 0).val < win2_6.index t (0 : Fin 2) * 400 + 400; omega
  | ⟨1, _⟩ => show win2_6.index t (1 : Fin 2) * 128 ≤ (i 1).val ∧ (i 1).val < win2_6.index t (1 : Fin 2) * 128 + 128; omega

/-- The region's output array after its run, as one function of the arrays the region finds. -/
theorem arr (c : Dev nD) :
    (dat2 (F := Ideal) V c).arrAt 6 cfg2.N = Cert.Gcn.layer (V c main_arg0) (V c main_v20) (V c main_v8) (V c main_v9) (V c main_v15) (V c main_v18) :=
  (dat2 (F := Ideal) V c).arrAt_eq_of_cover 6 _ (fun t _ => flushed_eq V c t) cover

end Cert.KernelIdeal.Region2

end
-- ==== Proof.Region3.lean ====
/-
  The last region: 25 grid points; point `t` reads rows `400 t … 400 t + 399` of the adjacency matrix (all 10000
  columns) and the whole feature matrix, and writes rows `400 t … 400 t + 399` of their product. Entry `(p, q)` of
  the block is `∑ k, A (400 t + p, k) · B (k, q)`: the matrix unit's product into a zero accumulator is the plain
  sum over the contracted axis on the extended reals, and the change of float format before it is the identity.
  The 25 blocks tile the 10000 rows, so the array ends as the whole product.
-/
import proofs.«178369_g11012296147170_week1_w3_712_3_alg».proof.Proof.Gen.KernelIdeal.Frame
import proofs.«178369_g11012296147170_week1_w3_712_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The product of a 400-row block with the feature matrix, read at an entry -/

/-- The left factor's index for output entry `i` and contracted position `k`: row of `i`, column `k`. -/
abbrev lidx (i : S400x128.Idx) (k : Fin 10000) : S400x10000.Idx := fun a => match a with
  | ⟨0, _⟩ => ⟨(i 0).val, (i 0).isLt⟩
  | ⟨1, _⟩ => ⟨k.val, k.isLt⟩
/-- The right factor's index: row `k`, column of `i`. -/
abbrev ridx (i : S400x128.Idx) (k : Fin 10000) : S10000x128.Idx := fun a => match a with
  | ⟨0, _⟩ => ⟨k.val, k.isLt⟩
  | ⟨1, _⟩ => ⟨(i 1).val, (i 1).isLt⟩

theorem lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The matrix unit's product into a zero accumulator, at an entry: the sum over the contracted axis. -/
theorem mm_apply (l : FVec Ideal S400x10000 .bf16) (r : FVec Ideal S10000x128 .bf16) (i : S400x128.Idx) :
    matmul dot_S400x10000_S10000x128_S400x128_1_0_0_1_n_n none l r (constant S400x128 .f32 0x00000000#32) i
      = ∑ k : Fin 10000, l (lidx i k) * r (ridx i k) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i ((contrEquiv1 dot_S400x10000_S10000x128_S400x128_1_0_0_1_n_n 10000 rfl rfl).symm k) = lidx i k := funext fun a => Fin.ext (by
    match a with
    | ⟨0, _⟩ => exact lhs_0 _ _
    | ⟨1, _⟩ => exact (lhs_1 _ _).trans hk)
  have er : dot_S400x10000_S10000x128_S400x128_1_0_0_1_n_n.rhsIdx i ((contrEquiv1 dot_S400x10000_S10000x128_S400x128_1_0_0_1_n_n 10000 rfl rfl).symm k) = ridx i k := funext fun a => Fin.ext (by
    match a with
    | ⟨0, _⟩ => exact (rhs_0 _ _).trans hk
    | ⟨1, _⟩ => exact rhs_1 _ _)
  rw [el, er]

/-- The body's one stored value at an entry of the block. -/
theorem pay_apply (x0 : Vec Ideal S400x10000 .f32) (x1 : Vec Ideal S10000x128 .bf16) (i : S400x128.Idx) :
    k3_pay1 x0 x1 i = ∑ k : Fin 10000, x0 (lidx i k) * x1 (ridx i k) := by
  unfold k3_pay1
  rw [shapeCast_self]
  exact mm_apply _ _ i

/-! ## From the blocks to the array -/

/-- The two arrays the region reads, at their literal types. -/
abbrev arrA (c : Dev nD) : S10000x10000.Idx → EReal := V c main_arg0
abbrev arrB (c : Dev nD) : S10000x128.Idx → EReal := V c main_v21

theorem hz : (![0, 0] : Fin 2 → Nat) = fun _ => 0 := funext fun a => by fin_cases a <;> rfl

/-- The printed index maps over the grid: the adjacency window and the output window both sit at block row `t`,
    block column 0; the feature matrix's window is the whole array at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays the region finds. -/
theorem flushed_eq (c : Dev nD) (t : Fin cfg3.N) :
    (dat3 (F := Ideal) V c).flushed 2 t
      = ((cfg3.win 2).blk t).view.read (Elt Ideal) (Cert.Gcn.agg (arrA V c) (arrB V c)) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x128) hz]
  obtain ⟨e0, e1, e2, e3, e4, e5⟩ := idx_facts t
  funext j
  refine (pay_apply (iblk3 V c 0 t) (iblk3 V c 1 t) j).trans ?_
  show (∑ k : Fin 10000, arrA V c (((cfg3.win 0).blk t).view.emb (lidx j k)) * arrB V c (((cfg3.win 1).blk t).view.emb (ridx j k)))
      = Cert.Gcn.agg (arrA V c) (arrB V c) (((cfg3.win 2).blk t).view.emb j)
  unfold Cert.Gcn.agg
  refine Finset.sum_congr rfl fun k _ => ?_
  have h0 : ((cfg3.win 0).blk t).view.emb (lidx j k) = ix2 ((((cfg3.win 2).blk t).view.emb j) 0) k := by
    funext a; apply Fin.ext
    match a with
    | ⟨0, _⟩ => show win3_0.index t (0 : Fin 2) * 400 + 1 * (j 0).val = win3_2.index t (0 : Fin 2) * 400 + 1 * (j 0).val; omega
    | ⟨1, _⟩ => show win3_0.index t (1 : Fin 2) * 10000 + 1 * k.val = k.val; omega
  have h1 : ((cfg3.win 1).blk t).view.emb (ridx j k) = ix2 k ((((cfg3.win 2).blk t).view.emb j) 1) := by
    funext a; apply Fin.ext
    match a with
    | ⟨0, _⟩ => show win3_1.index t (0 : Fin 2) * 10000 + 1 * k.val = k.val; omega
    | ⟨1, _⟩ => show win3_1.index t (1 : Fin 2) * 128 + 1 * (j 1).val = win3_2.index t (1 : Fin 2) * 128 + 1 * (j 1).val; omega
  rw [h0, h1]
  rfl

/-- An index of the array is in point `t`'s block iff each coordinate is in the block's range on its axis. -/
theorem mem_blk (t : Fin cfg3.N) (i : S10000x128.Idx) :
    i ∈ ((cfg3.win 2).blk t).view.set ↔ ∀ a : Fin 2, win3_2.index t a * S400x128.size a ≤ (i a).val ∧ (i a).val < win3_2.index t a * S400x128.size a + S400x128.size a := by
  show i ∈ ((View.whole main_v22).slice (win3_2.rect t)).set ↔ _
  rw [View.set_slice_whole, Rect.mem_set_unit]
  exact Iff.rfl

/-- Every index of the array lies in the block of the point `row / 400`. -/
theorem cover (i : S10000x128.Idx) :
    ∃ t : Fin cfg3.N, (cfg3.win 2).flush t = true ∧ i ∈ ((cfg3.win 2).blk t).view.set := by
  have hi0 : (i 0).val < 10000 := (i 0).isLt
  have hi1 : (i 1).val < 128 := (i 1).isLt
  have hN : cfg3.N = 25 := N_3
  let t : Fin cfg3.N := ⟨(i 0).val / 400, by rw [hN]; omega⟩
  obtain ⟨e0, e1, e2, e3, e4, e5⟩ := idx_facts t
  have ht : t.val = (i 0).val / 400 := rfl
  refine ⟨t, flush3_2 t, ?_⟩
  rw [mem_blk]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 128 ≤ (i 1).val ∧ (i 1).val < win3_2.index t (1 : Fin 2) * 128 + 128; omega

/-- The region's output array after its run, as one function of the arrays the region finds. -/
theorem arr (c : Dev nD) :
    (dat3 (F := Ideal) V c).arrAt 2 cfg3.N = Cert.Gcn.agg (V c main_arg0) (V c main_v21) :=
  (dat3 (F := Ideal) V c).arrAt_eq_of_cover 2 (Cert.Gcn.agg (arrA V c) (arrB V c))
    (fun t _ => flushed_eq V c t) cover

end Cert.KernelIdeal.Region3

end
-- ==== Proof.HostVals.lean ====
/-
  What the host operations before the first region leave in the buffers the regions read: each weight matrix
  transposed, each bias and shift vector laid out as a row, and the two scale rows `γ · (1 / √(1 + ε))`; the two
  arguments the regions read directly are untouched. (A change of float format is the identity on the extended reals.)
-/
import proofs.«178369_g11012296147170_week1_w3_712_3_alg».proof.Proof.Gen.KernelIdeal.Frame
import proofs.«178369_g11012296147170_week1_w3_712_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.HostVals

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three layout facts, for any operand -/

/-- A length-128 vector cast to one row of 128 reads, at row 0 and column `j`, the vector's entry `j`: the two
    row-major positions are `0 · 128 + j` and `j`. -/
theorem rowCast (b : FVec Ideal S128 .f32) :
    (fun i => shapeCast S1x128 b shapeCasts_S128_S1x128 i) = Cert.Gcn.row b := by
  funext i
  obtain ⟨u, j, rfl⟩ : ∃ u j, i = ix2 u j := ⟨i 0, i 1, eq_ix2 i⟩
  exact shapeCast_a_1a_apply b shapeCasts_S128_S1x128 u j

/-- Exchanging the two axes of a 128 × 128 matrix and then changing its float format (the identity on the extended
    reals) reads, at `(r, k)`, the matrix's entry `(k, r)`. -/
theorem trCast (W : FVec Ideal S128x128 .f32) :
    (truncf .bf16 (transpose S128x128 [1, 0] W transposes_S128x128_S128x128_1_0) bitsLt_bf16_f32 : FVec Ideal S128x128 .bf16)
      = Cert.Gcn.tr W := by
  funext i
  exact transpose_apply [1, 0] W transposes_S128x128_S128x128_1_0 i (ix2 (i 1) (i 0)) (fun b => match b with
    | ⟨0, _⟩ => rfl
    | ⟨1, _⟩ => rfl)

/-- The scale row: the scalar `1 / √(1 + ε)` repeated along 128 entries, multiplied entry by entry with `γ`, laid out
    as a row. At column `j` it is `γ[j] · (1 / √(1 + ε))`: the row cast reads entry `j` of the product, the product is
    entrywise, and every entry of the repeated scalar is the scalar, whose quotient and root are the extended reals'. -/
theorem scaleCast (g : FVec Ideal S128 .f32) :
    (fun i => shapeCast S1x128 (mulf g (broadcastInDim S128 ![] bcast_S_S128
        (Host.divf (constant (F := Ideal) S_ .f32 0x3F800000#32) (Host.sqrt (constant (F := Ideal) S_ .f32 0x3F800054#32)))))
      shapeCasts_S128_S1x128 i) = Cert.Gcn.scaleRow g := by
  funext i
  obtain ⟨u, j, rfl⟩ : ∃ u j, i = ix2 u j := ⟨i 0, i 1, eq_ix2 i⟩
  refine (shapeCast_a_1a_apply _ shapeCasts_S128_S1x128 u j).trans ?_
  refine congrArg (fun z : EReal => g (ix1 j) * z) ?_
  exact broadcastInDim_apply (![] : Fin 0 → Fin S128.rank) bcast_S_S128 _ (ix1 j) ix0 (fun a => a.elim0)

/-! ## The twelve buffers: the fold of the host operations read at one buffer, then the layout fact -/

theorem V1_arg0 (c : Dev nD) : V1 m ρ c main_arg0 = (m ((c : Thread nD τ).loc main_arg0)) := by
  show StableHlo.after hostOps0 (W0 m ρ c) (Proc.devRef .tc main_arg0) = _
  after_results
theorem V1_arg1 (c : Dev nD) : V1 m ρ c main_arg1 = (m ((c : Thread nD τ).loc main_arg1)) := by
  show StableHlo.after hostOps0 (W0 m ρ c) (Proc.devRef .tc main_arg1) = _
  after_results
theorem V1_v4 (c : Dev nD) : V1 m ρ c main_v4 = Cert.Gcn.scaleRow (m ((c : Thread nD τ).loc main_arg4)) := by
  show StableHlo.after hostOps0 (W0 m ρ c) (Proc.devRef .tc main_v4) = _
  after_results
  exact scaleCast (m ((c : Thread nD τ).loc main_arg4))
theorem V1_v5 (c : Dev nD) : V1 m ρ c main_v5 = Cert.Gcn.row (m ((c : Thread nD τ).loc main_arg5)) := by
  show StableHlo.after hostOps0 (W0 m ρ c) (Proc.devRef .tc main_v5) = _
  after_results
  exact rowCast (m ((c : Thread nD τ).loc main_arg5))
theorem V1_v8 (c : Dev nD) : V1 m ρ c main_v8 = Cert.Gcn.scaleRow (m ((c : Thread nD τ).loc main_arg8)) := by
  show StableHlo.after hostOps0 (W0 m ρ c) (Proc.devRef .tc main_v8) = _
  after_results
  exact scaleCast (m ((c : Thread nD τ).loc main_arg8))
theorem V1_v9 (c : Dev nD) : V1 m ρ c main_v9 = Cert.Gcn.row (m ((c : Thread nD τ).loc main_arg9)) := by
  show StableHlo.after hostOps0 (W0 m ρ c) (Proc.devRef .tc main_v9) = _
  after_results
  exact rowCast (m ((c : Thread nD τ).loc main_arg9))
theorem V1_v11 (c : Dev nD) : V1 m ρ c main_v11 = Cert.Gcn.tr (m ((c : Thread nD τ).loc main_arg2)) := by
  show StableHlo.after hostOps0 (W0 m ρ c) (Proc.devRef .tc main_v11) = _
  after_results
  exact trCast (m ((c : Thread nD τ).loc main_arg2))
theorem V1_v13 (c : Dev nD) : V1 m ρ c main_v13 = Cert.Gcn.tr (m ((c : Thread nD τ).loc main_arg6)) := by
  show StableHlo.after hostOps0 (W0 m ρ c) (Proc.devRef .tc main_v13) = _
  after_results
  exact trCast (m ((c : Thread nD τ).loc main_arg6))
theorem V1_v15 (c : Dev nD) : V1 m ρ c main_v15 = Cert.Gcn.tr (m ((c : Thread nD τ).loc main_arg10)) := by
  show StableHlo.after hostOps0 (W0 m ρ c) (Proc.devRef .tc main_v15) = _
  after_results
  exact trCast (m ((c : Thread nD τ).loc main_arg10))
theorem V1_v16 (c : Dev nD) : V1 m ρ c main_v16 = Cert.Gcn.row (m ((c : Thread nD τ).loc main_arg3)) := by
  show StableHlo.after hostOps0 (W0 m ρ c) (Proc.devRef .tc main_v16) = _
  after_results
  exact rowCast (m ((c : Thread nD τ).loc main_arg3))
theorem V1_v17 (c : Dev nD) : V1 m ρ c main_v17 = Cert.Gcn.row (m ((c : Thread nD τ).loc main_arg7)) := by
  show StableHlo.after hostOps0 (W0 m ρ c) (Proc.devRef .tc main_v17) = _
  after_results
  exact rowCast (m ((c : Thread nD τ).loc main_arg7))
theorem V1_v18 (c : Dev nD) : V1 m ρ c main_v18 = Cert.Gcn.row (m ((c : Thread nD τ).loc main_arg11)) := by
  show StableHlo.after hostOps0 (W0 m ρ c) (Proc.devRef .tc main_v18) = _
  after_results
  exact rowCast (m ((c : Thread nD τ).loc main_arg11))

end Cert.KernelIdeal.HostVals

end
-- ==== Proof.Thread.lean ====
/-
  The kernel program's result as the encoder of its arguments: the four regions' output arrays composed through the
  buffer contents at each region boundary. A region leaves every buffer that is not one of its arrays as it found it,
  and its input arrays as it found them, so each region reads the previous region's output and the host-made rows
  and matrices unchanged.
-/
import proofs.«178369_g11012296147170_week1_w3_712_3_alg».proof.Proof.Region0
import proofs.«178369_g11012296147170_week1_w3_712_3_alg».proof.Proof.Region1
import proofs.«178369_g11012296147170_week1_w3_712_3_alg».proof.Proof.Region2
import proofs.«178369_g11012296147170_week1_w3_712_3_alg».proof.Proof.Region3
import proofs.«178369_g11012296147170_week1_w3_712_3_alg».proof.Proof.HostVals

set_option maxRecDepth 16384

noncomputable section

open scoped BigOperators

namespace Cert.KernelIdeal.Thread

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three intermediate feature matrices -/

/-- The first linear map of the input features. -/
def feat1 (c : Dev nD) : Cert.Gcn.SND.Idx → EReal :=
  Cert.Gcn.lin (m ((c : Thread nD τ).loc main_arg1)) (Cert.Gcn.tr (m ((c : Thread nD τ).loc main_arg2))) (Cert.Gcn.row (m ((c : Thread nD τ).loc main_arg3)))
/-- The first inner layer applied to it. -/
def feat2 (c : Dev nD) : Cert.Gcn.SND.Idx → EReal :=
  Cert.Gcn.layer (m ((c : Thread nD τ).loc main_arg0)) (feat1 m c) (Cert.Gcn.scaleRow (m ((c : Thread nD τ).loc main_arg4))) (Cert.Gcn.row (m ((c : Thread nD τ).loc main_arg5))) (Cert.Gcn.tr (m ((c : Thread nD τ).loc main_arg6))) (Cert.Gcn.row (m ((c : Thread nD τ).loc main_arg7)))
/-- The second inner layer applied to that. -/
def feat3 (c : Dev nD) : Cert.Gcn.SND.Idx → EReal :=
  Cert.Gcn.layer (m ((c : Thread nD τ).loc main_arg0)) (feat2 m c) (Cert.Gcn.scaleRow (m ((c : Thread nD τ).loc main_arg8))) (Cert.Gcn.row (m ((c : Thread nD τ).loc main_arg9))) (Cert.Gcn.tr (m ((c : Thread nD τ).loc main_arg10))) (Cert.Gcn.row (m ((c : Thread nD τ).loc main_arg11)))

/-! ## Entering the second region: what the first region left -/

theorem V2_arg0 (c : Dev nD) : V2 m ρ c main_arg0 = (m ((c : Thread nD τ).loc main_arg0)) :=
  (W2_of_ne m ρ c main_arg0 (by decide)).trans (HostVals.V1_arg0 m ρ c)
theorem V2_v4 (c : Dev nD) : V2 m ρ c main_v4 = Cert.Gcn.scaleRow (m ((c : Thread nD τ).loc main_arg4)) :=
  (W2_of_ne m ρ c main_v4 (by decide)).trans (HostVals.V1_v4 m ρ c)
theorem V2_v5 (c : Dev nD) : V2 m ρ c main_v5 = Cert.Gcn.row (m ((c : Thread nD τ).loc main_arg5)) :=
  (W2_of_ne m ρ c main_v5 (by decide)).trans (HostVals.V1_v5 m ρ c)
theorem V2_v13 (c : Dev nD) : V2 m ρ c main_v13 = Cert.Gcn.tr (m ((c : Thread nD τ).loc main_arg6)) :=
  (W2_of_ne m ρ c main_v13 (by decide)).trans (HostVals.V1_v13 m ρ c)
theorem V2_v17 (c : Dev nD) : V2 m ρ c main_v17 = Cert.Gcn.row (m ((c : Thread nD τ).loc main_arg7)) :=
  (W2_of_ne m ρ c main_v17 (by decide)).trans (HostVals.V1_v17 m ρ c)
theorem V2_v8 (c : Dev nD) : V2 m ρ c main_v8 = Cert.Gcn.scaleRow (m ((c : Thread nD τ).loc main_arg8)) :=
  (W2_of_ne m ρ c main_v8 (by decide)).trans (HostVals.V1_v8 m ρ c)
theorem V2_v9 (c : Dev nD) : V2 m ρ c main_v9 = Cert.Gcn.row (m ((c : Thread nD τ).loc main_arg9)) :=
  (W2_of_ne m ρ c main_v9 (by decide)).trans (HostVals.V1_v9 m ρ c)
theorem V2_v15 (c : Dev nD) : V2 m ρ c main_v15 = Cert.Gcn.tr (m ((c : Thread nD τ).loc main_arg10)) :=
  (W2_of_ne m ρ c main_v15 (by decide)).trans (HostVals.V1_v15 m ρ c)
theorem V2_v18 (c : Dev nD) : V2 m ρ c main_v18 = Cert.Gcn.row (m ((c : Thread nD τ).loc main_arg11)) :=
  (W2_of_ne m ρ c main_v18 (by decide)).trans (HostVals.V1_v18 m ρ c)

/-- The first region's output array is the first linear map. -/
theorem V2_v19 (c : Dev nD) : V2 m ρ c main_v19 = feat1 m c := by
  refine ((W2_arr m ρ c 3).trans (Region0.arr (V1 m ρ) c)).trans ?_
  rw [HostVals.V1_arg1 m ρ c, HostVals.V1_v11 m ρ c, HostVals.V1_v16 m ρ c]
  rfl

/-! ## Entering the third region -/

theorem V3_arg0 (c : Dev nD) : V3 m ρ c main_arg0 = (m ((c : Thread nD τ).loc main_arg0)) :=
  ((W3_arr m ρ c 0).trans (((dat1 (V2 m ρ) c).arrAt_in 0 rfl _).trans (A_eq1 (V2 m ρ) c 0))).trans (V2_arg0 m ρ c)
theorem V3_v8 (c : Dev nD) : V3 m ρ c main_v8 = Cert.Gcn.scaleRow (m ((c : Thread nD τ).loc main_arg8)) :=
  (W3_of_ne m ρ c main_v8 (by decide)).trans (V2_v8 m ρ c)
theorem V3_v9 (c : Dev nD) : V3 m ρ c main_v9 = Cert.Gcn.row (m ((c : Thread nD τ).loc main_arg9)) :=
  (W3_of_ne m ρ c main_v9 (by decide)).trans (V2_v9 m ρ c)
theorem V3_v15 (c : Dev nD) : V3 m ρ c main_v15 = Cert.Gcn.tr (m ((c : Thread nD τ).loc main_arg10)) :=
  (W3_of_ne m ρ c main_v15 (by decide)).trans (V2_v15 m ρ c)
theorem V3_v18 (c : Dev nD) : V3 m ρ c main_v18 = Cert.Gcn.row (m ((c : Thread nD τ).loc main_arg11)) :=
  (W3_of_ne m ρ c main_v18 (by decide)).trans (V2_v18 m ρ c)

/-- The second region's output array is the first inner layer. -/
theorem V3_v20 (c : Dev nD) : V3 m ρ c main_v20 = feat2 m c := by
  refine ((W3_arr m ρ c 6).trans (Region1.arr (V2 m ρ) c)).trans ?_
  rw [V2_arg0 m ρ c, V2_v19 m ρ c, V2_v4 m ρ c, V2_v5 m ρ c, V2_v13 m ρ c, V2_v17 m ρ c]
  rfl

/-! ## Entering the last region -/

theorem V4_arg0 (c : Dev nD) : V4 m ρ c main_arg0 = (m ((c : Thread nD τ).loc main_arg0)) :=
  ((W4_arr m ρ c 0).trans (((dat2 (V3 m ρ) c).arrAt_in 0 rfl _).trans (A_eq2 (V3 m ρ) c 0))).trans (V3_arg0 m ρ c)

/-- The third region's output array is the second inner layer. -/
theorem V4_v21 (c : Dev nD) : V4 m ρ c main_v21 = feat3 m c := by
  refine ((W4_arr m ρ c 6).trans (Region2.arr (V3 m ρ) c)).trans ?_
  rw [V3_arg0 m ρ c, V3_v20 m ρ c, V3_v8 m ρ c, V3_v9 m ρ c, V3_v15 m ρ c, V3_v18 m ρ c]
  rfl

/-- The last region's output array, after the whole run, is the encoder of the launch contents of the arguments. -/
theorem result (c : Dev nD) :
    W5 m ρ c (Proc.devRef .tc main_v22) = Cert.Gcn.encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W5_arr m ρ c 2).trans (Region3.arr (V4 m ρ) c)).trans ?_
  rw [V4_arg0 m ρ c, V4_v21 m ρ c]
  rfl

end Cert.KernelIdeal.Thread

end
-- ==== Proof.RefValue.lean ====
/-
  The reference program's result as the encoder of its arguments, stage by stage: each linear map is a sum over the
  contracted axis of the features times the transposed weight plus the bias broadcast over the rows; each aggregation
  is a sum over the nodes; between them the division by `√(1 + ε)`, the product with `γ`, the sum with `β` and the
  maximum with zero, entry by entry.
-/
import proofs.«178369_g11012296147170_week1_w3_712_3_alg».proof.Proof.Gen.ReferenceIdeal.Read
import proofs.«178369_g11012296147170_week1_w3_712_3_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Two rank-2 indices with the same two coordinates are equal. -/
local macro "idx2" : tactic =>
  `(tactic| exact funext fun a => Fin.ext (by match a with | ⟨0, _⟩ => rfl | ⟨1, _⟩ => rfl))

/-- Two rank-1 indices with the same coordinate are equal. -/
local macro "idx1" : tactic =>
  `(tactic| exact funext fun a => Fin.ext (by match a with | ⟨0, _⟩ => rfl))

section Stages

variable (x0 : (⟨S10000x10000, .f32⟩ : BufTy).Contents (Elt Ideal)) (x1 : (⟨S10000x128, .f32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x128, .f32⟩ : BufTy).Contents (Elt Ideal)) (x11 : (⟨S128, .f32⟩ : BufTy).Contents (Elt Ideal))

/-! ## A linear stage -/

/-- Entry `(r, c)` of a linear stage is the sum over `k` of the features at `(r, k)` times the weight at `(c, k)`
    (the transposed weight at `(k, c)`), plus the bias at `c`: whatever the feature matrix is. -/
theorem lin_eq : val_main_v4 (F := Ideal) x1 x2 x3 = Cert.Gcn.lin x1 (Cert.Gcn.tr x2) (Cert.Gcn.row x3) := by
  funext i
  rw [val_main_v4_apply, val_main_v1_apply, val_main_v3_apply, val_main_v2_apply, Ideal.addf_def]
  unfold Cert.Gcn.lin Cert.Gcn.tr Cert.Gcn.row
  have hb : idx_main_v2 (idx_main_v3 i) = ix1 (i 1) := by idx1
  rw [hb]
  refine congrArg (· + x3 (ix1 (i 1))) (Finset.sum_congr rfl fun k _ => ?_)
  have hl : lidx_main_v1 i k = ix2 (i 0) k := by idx2
  have hr : idx_main_v0 (ridx_main_v1 i k) = ix2 (i 1) k := by idx2
  rw [val_main_v0_apply, hl, hr]
  rfl

/-- The second linear stage is the first one's map at the first normalised features. -/
theorem lin2_eq : val_main_v21 (F := Ideal) x0 x1 x2 x3 x4 x5 x6 x7
    = Cert.Gcn.lin (val_main_v16 (F := Ideal) x0 x1 x2 x3 x4 x5) (Cert.Gcn.tr x6) (Cert.Gcn.row x7) :=
  lin_eq (val_main_v16 (F := Ideal) x0 x1 x2 x3 x4 x5) x6 x7

/-- The third linear stage is the same map at the second normalised features. -/
theorem lin3_eq : val_main_v38 (F := Ideal) x0 x1 x2 x3 x4 x5 x6 x7 x8 x9 x10 x11
    = Cert.Gcn.lin (val_main_v33 (F := Ideal) x0 x1 x2 x3 x4 x5 x6 x7 x8 x9) (Cert.Gcn.tr x10) (Cert.Gcn.row x11) :=
  lin_eq (val_main_v33 (F := Ideal) x0 x1 x2 x3 x4 x5 x6 x7 x8 x9) x10 x11

/-! ## An aggregation stage -/

/-- Entry `(r, c)` of an aggregation is the sum over the nodes `k` of the adjacency at `(r, k)` times the
    features at `(k, c)`. -/
theorem agg1_eq : val_main_v5 (F := Ideal) x0 x1 x2 x3 = Cert.Gcn.agg x0 (val_main_v4 (F := Ideal) x1 x2 x3) := by
  funext i
  rw [val_main_v5_apply]
  unfold Cert.Gcn.agg
  refine Finset.sum_congr rfl fun k _ => ?_
  have hl : lidx_main_v5 i k = ix2 (i 0) k := by idx2
  have hr : ridx_main_v5 i k = ix2 k (i 1) := by idx2
  rw [hl, hr]
  rfl

theorem agg2_eq : val_main_v22 (F := Ideal) x0 x1 x2 x3 x4 x5 x6 x7
    = Cert.Gcn.agg x0 (val_main_v21 (F := Ideal) x0 x1 x2 x3 x4 x5 x6 x7) := by
  funext i
  rw [val_main_v22_apply]
  unfold Cert.Gcn.agg
  refine Finset.sum_congr rfl fun k _ => ?_
  have hl : lidx_main_v22 i k = ix2 (i 0) k := by idx2
  have hr : ridx_main_v22 i k = ix2 k (i 1) := by idx2
  rw [hl, hr]
  rfl

theorem agg3_eq : val_main_v39 (F := Ideal) x0 x1 x2 x3 x4 x5 x6 x7 x8 x9 x10 x11
    = Cert.Gcn.agg x0 (val_main_v38 (F := Ideal) x0 x1 x2 x3 x4 x5 x6 x7 x8 x9 x10 x11) := by
  funext i
  rw [val_main_v39_apply]
  unfold Cert.Gcn.agg
  refine Finset.sum_congr rfl fun k _ => ?_
  have hl : lidx_main_v39 i k = ix2 (i 0) k := by idx2
  have hr : ridx_main_v39 i k = ix2 k (i 1) := by idx2
  rw [hl, hr]
  rfl

/-! ## A normalise-and-clip stage -/

/-- The five entrywise operations between two layers, at any feature matrix: the quotient by the broadcast
    square root, the product with the broadcast `γ`, the sum with the broadcast `β`, the maximum with the
    broadcast zero. -/
def norm (H : FVec Ideal S10000x128 .f32) (g be : FVec Ideal S128 .f32) : FVec Ideal S10000x128 .f32 :=
  maximumf (addf (mulf (Host.divf H (val_main_v8 (F := Ideal))) (val_main_v11 (F := Ideal) g)) (val_main_v14 (F := Ideal) be))
    (val_main_call0_v0 (F := Ideal))

/-- Entry `(r, c)` of that stage: the divisor is `√(1 + ε)` at every entry, the broadcasts of `γ` and `β` read
    the vectors at `c`, and the zero word is `0`. -/
theorem norm_eq (H : FVec Ideal S10000x128 .f32) (g be : FVec Ideal S128 .f32) :
    norm H g be = Cert.Gcn.actDiv H g be := by
  funext i
  show max (Ideal.div (H i) (val_main_v8 (F := Ideal) i) * val_main_v11 (F := Ideal) g i + val_main_v14 (F := Ideal) be i)
    (val_main_call0_v0 (F := Ideal) i) = _
  rw [val_main_v8_apply, val_main_v11_apply, val_main_v10_apply, val_main_v14_apply, val_main_v13_apply,
    val_main_call0_v0_apply]
  have hg : idx_main_v10 (idx_main_v11 i) = ix1 (i 1) := by idx1
  have hb : idx_main_v13 (idx_main_v14 i) = ix1 (i 1) := by idx1
  have hz : val_main_call0_cst (F := Ideal) (idx_main_call0_v0 i) = (0 : EReal) := Ideal.ofBits_zero_f32
  have hs : val_main_v7 (F := Ideal) (idx_main_v8 i) = Cert.Gcn.rootVar := rfl
  rw [hg, hb, hz, hs]
  rfl

/-- The first normalise-and-clip stage is that map at the first aggregation. -/
theorem norm1_eq : val_main_v16 (F := Ideal) x0 x1 x2 x3 x4 x5
    = Cert.Gcn.actDiv (val_main_v5 (F := Ideal) x0 x1 x2 x3) x4 x5 :=
  norm_eq (val_main_v5 (F := Ideal) x0 x1 x2 x3) x4 x5

/-- The second one is the same map at the second aggregation. -/
theorem norm2_eq : val_main_v33 (F := Ideal) x0 x1 x2 x3 x4 x5 x6 x7 x8 x9
    = Cert.Gcn.actDiv (val_main_v22 (F := Ideal) x0 x1 x2 x3 x4 x5 x6 x7) x8 x9 :=
  norm_eq (val_main_v22 (F := Ideal) x0 x1 x2 x3 x4 x5 x6 x7) x8 x9

end Stages

/-- The last stage of the reference, as a function of the twelve arguments, is the encoder. -/
theorem result_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x128, .f32⟩ : BufTy).Contents (Elt Ideal)) (x11 : (⟨S128, .f32⟩ : BufTy).Contents (Elt Ideal)) :
    val_main_v39 (F := Ideal) x0 x1 x2 x3 x4 x5 x6 x7 x8 x9 x10 x11 = Cert.Gcn.encoder x0 x1 x2 x3 x4 x5 x6 x7 x8 x9 x10 x11 := by
  rw [agg3_eq, lin3_eq, norm2_eq, ← Cert.Gcn.act_scale, agg2_eq, lin2_eq, norm1_eq, ← Cert.Gcn.act_scale, agg1_eq, lin_eq]
  unfold Cert.Gcn.encoder Cert.Gcn.layer
  rfl

end Cert.ReferenceIdeal.RefValue

end
-- ==== Proof.lean ====
/-
  A three-layer graph encoder, `h ↦ A · (h · Wᵀ + b)` three times with a column-wise scale, shift and clip at zero
  between the layers, computed by four kernel regions (a linear map; two fused layers, each 25 row blocks of 400
  rows; a final aggregation, 25 row blocks) against the same encoder written as plain matrix operations.

  On the extended reals both programs compute `Cert.Gcn.encoder` of the twelve arguments (Proof/Spec.lean): the
  kernel's regions each leave one function of the arrays they find (Proof/Region0 … Region3), composed through the
  region boundaries (Proof/Thread.lean); the reference's stages read index by index give the same function
  (Proof/RefValue.lean). The one place the two differ, multiplying by the row `γ · (1 / √(1 + ε))` against dividing
  by `√(1 + ε)` and then multiplying by `γ`, is `Cert.Gcn.act_scale`: division by a nonzero real is the product with
  its reciprocal at every extended real, so no finiteness of the inputs is used. Changes of float format are the
  identity there, and every matrix product is the plain sum over its contracted axis. No operation was rewritten by
  the idealization, so the word-level program and the idealized one are the same text.
-/
import proofs.«178369_g11012296147170_week1_w3_712_3_alg».proof.Defs
import proofs.«178369_g11012296147170_week1_w3_712_3_alg».proof.Proof.Gen.Kernel
import proofs.«178369_g11012296147170_week1_w3_712_3_alg».proof.Proof.Gen.Kernel.Skeleton
import proofs.«178369_g11012296147170_week1_w3_712_3_alg».proof.Proof.Gen.Kernel.Launch
import proofs.«178369_g11012296147170_week1_w3_712_3_alg».proof.Proof.Gen.Kernel.Points
import proofs.«178369_g11012296147170_week1_w3_712_3_alg».proof.Proof.Gen.Kernel.Frame
import proofs.«178369_g11012296147170_week1_w3_712_3_alg».proof.Proof.Gen.KernelIdeal
import proofs.«178369_g11012296147170_week1_w3_712_3_alg».proof.Proof.Gen.KernelIdeal.Skeleton
import proofs.«178369_g11012296147170_week1_w3_712_3_alg».proof.Proof.Gen.KernelIdeal.Launch
import proofs.«178369_g11012296147170_week1_w3_712_3_alg».proof.Proof.Gen.KernelIdeal.Points
import proofs.«178369_g11012296147170_week1_w3_712_3_alg».proof.Proof.Gen.KernelIdeal.Frame
import proofs.«178369_g11012296147170_week1_w3_712_3_alg».proof.Proof.Gen.ReferenceIdeal
import proofs.«178369_g11012296147170_week1_w3_712_3_alg».proof.Proof.Gen.ReferenceIdeal.Run
import proofs.«178369_g11012296147170_week1_w3_712_3_alg».proof.Proof.Gen.ReferenceIdeal.Read
import proofs.«178369_g11012296147170_week1_w3_712_3_alg».proof.Proof.Gen.Pre_finite_inputs
import proofs.«178369_g11012296147170_week1_w3_712_3_alg».proof.Proof.RunNamed
import proofs.«178369_g11012296147170_week1_w3_712_3_alg».proof.Proof.Thread
import proofs.«178369_g11012296147170_week1_w3_712_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a host program: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the encoder of those arguments. -/
theorem algebraic : Cert.algebraic_KernelIdeal_ReferenceIdeal := by
  intro m ρ m' ρ' _ hagree
  refine ⟨fun c => Cert.Gcn.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Thread.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v39_eq, Cert.ReferenceIdeal.RefValue.result_eq,
      h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
